-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000x16 : Shape := ⟨2, ![320000, 16]⟩
abbrev S528x512 : Shape := ⟨2, ![528, 512]⟩
abbrev S512 : Shape := ⟨1, ![512]⟩
abbrev S512x256 : Shape := ⟨2, ![512, 256]⟩
abbrev S256 : Shape := ⟨1, ![256]⟩
abbrev S512x512 : Shape := ⟨2, ![512, 512]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S528x512 : S_.BroadcastsInDim S528x512 (![] : Fin 0 → Fin S528x512.rank)
  reducesTo_S528x512_S_d0_1 : S528x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_arg9 : FVec F S512x256 .f32) (main_arg10 : FVec F S256 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S512x256 .f32) (main_arg6 : FVec F S256 .f32) (main_arg7 : FVec F S512x512 .f32) (main_arg8 : FVec F S512 .f32) (main_arg9 : FVec F S512x256 .f32) (main_arg10 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x256 .f32) (main_arg1 : IVec S2x320000 32) (main_arg2 : FVec F S320000x16 .f32) (main_arg3 : FVec F S528x512 .f32) (main_arg4 : FVec F S512 .f32) (main_arg5 : FVec F S512x256 .f32) (main_arg6 : FVec F S256 .f32) (main_arg7 : FVec F S512x512 .f32) (main_arg8 : FVec F S512 .f32) (main_arg9 : FVec F S512x256 .f32) (main_arg10 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x16 .f32 := Host.absf main_arg2
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S528x512 .f32 := Host.absf main_arg3
  let main_cst_2 : FVec F S_ .f32 := constant S_ .f32 0x7F800000#32
  let main_v10 : FVec F S528x512 .f32 := broadcastInDim S528x512 ![] bcast_S_S528x512 main_cst_2
  let main_v11 : IVec S528x512 1 := cmpf .olt main_v9 main_v10
  let main_c_3 : IVec S_ 1 := constantI S_ 1 1#1
  let main_v12 : IVec S_ 1 := (fun x v => Host.reduce IntOp.andi x v reducesTo_S528x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S10000x256 : Shape := ⟨2, ![10000, 256]⟩
abbrev S2x320000 : Shape := ⟨2, ![2, 320000]⟩
abbrev S320000x16 : Shape := ⟨2, ![320000, 16]⟩
abbrev S528x512 : Shape := ⟨2, ![528, 512]⟩
abbrev S512 : Shape := ⟨1, ![512]⟩
abbrev S512x256 : Shape := ⟨2, ![512, 256]⟩
abbrev S256 : Shape := ⟨1, ![256]⟩
abbrev S512x512 : Shape := ⟨2, ![512, 512]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x512 : Shape := ⟨2, ![1, 512]⟩
abbrev S1x256 : Shape := ⟨2, ![1, 256]⟩
abbrev S4000x256 : Shape := ⟨2, ![4000, 256]⟩
abbrev S4000x16 : Shape := ⟨2, ![4000, 16]⟩
abbrev S4000x528 : Shape := ⟨2, ![4000, 528]⟩
abbrev S4000x512 : Shape := ⟨2, ![4000, 512]⟩
abbrev S2000x256 : Shape := ⟨2, ![2000, 256]⟩
abbrev S2000x512 : Shape := ⟨2, ![2000, 512]⟩

abbrev nBuf : Space → Nat
  | .hbm => 49
  | .vmem => 22
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x16, .f32⟩
  | .hbm, ⟨3, _⟩ => ⟨S528x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S10000x256, .bf16⟩
  | .hbm, ⟨16, _⟩ => ⟨S320000x16, .bf16⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x256, .bf16⟩
  | .hbm, ⟨26, _⟩ => ⟨S_, .i32⟩
  | .hbm, ⟨27, _⟩ => ⟨S320000, .i32⟩
  | .hbm, ⟨28, _⟩ => ⟨S320000, .i1⟩
  | .hbm, ⟨29, _⟩ => ⟨S_, .i32⟩
  | .hbm, ⟨30, _⟩ => ⟨S320000, .i32⟩
  | .hbm, ⟨31, _⟩ => ⟨S320000, .i32⟩
  | .hbm, ⟨32, _⟩ => ⟨S320000, .i32⟩
  | .hbm, ⟨33, _⟩ => ⟨S320000x1, .i32⟩
  | .hbm, ⟨34, _⟩ => ⟨S320000x256, .bf16⟩
  | .hbm, ⟨35, _⟩ => ⟨S528x512, .bf16⟩
  | .hbm, ⟨36, _⟩ => ⟨S512x256, .bf16⟩
  | .hbm, ⟨37, _⟩ => ⟨S1x512, .f32⟩
  | .hbm, ⟨38, _⟩ => ⟨S1x256, .f32⟩
  | .hbm, ⟨39, _⟩ => ⟨S320000x256, .f32⟩
  | .hbm, ⟨40, _⟩ => ⟨S_, .f32⟩
  | .hbm, ⟨41, _⟩ => ⟨S10000x256, .f32⟩
  | .hbm, ⟨42, _⟩ => ⟨S320000x1, .i32⟩
  | .hbm, ⟨43, _⟩ => ⟨S10000x256, .f32⟩
  | .hbm, ⟨44, _⟩ => ⟨S512x512, .bf16⟩
  | .hbm, ⟨45, _⟩ => ⟨S512x256, .bf16⟩
  | .hbm, ⟨46, _⟩ => ⟨S1x512, .f32⟩
  | .hbm, ⟨47, _⟩ => ⟨S1x256, .f32⟩
  | .hbm, ⟨48, _⟩ => ⟨S10000x256, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S4000x16, .bf16⟩
  | .local _ .vmem, ⟨5, _⟩ => ⟨S4000x16, .bf16⟩
  | .local _ .vmem, ⟨6, _⟩ => ⟨S528x512, .bf16⟩
  | .local _ .vmem, ⟨7, _⟩ => ⟨S1x512, .f32⟩
  | .local _ .vmem, ⟨8, _⟩ => ⟨S512x256, .bf16⟩
  | .local _ .vmem, ⟨9, _⟩ => ⟨S1x256, .f32⟩
  | .local _ .vmem, ⟨10, _⟩ => ⟨S4000x256, .f32⟩
  | .local _ .vmem, ⟨11, _⟩ => ⟨S4000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S512x512, .bf16⟩
  | .local _ .vmem, ⟨17, _⟩ => ⟨S1x512, .f32⟩
  | .local _ .vmem, ⟨18, _⟩ => ⟨S512x256, .bf16⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S528x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  shapeCasts_S512_S1x512 : S512.ShapeCasts S1x512
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  concatenates_S4000x256_S4000x256_S4000x16_S4000x528_d1 : Shape.Concatenates [S4000x256, S4000x256, S4000x16] S4000x528 1
  inb_S528x512_S528x512_0_0 : ∀ a, (![0, 0] : Fin 2 → Nat) a + S528x512.size a ≤ S528x512.size a
  h_S528x512 : 0 < S528x512.numel
  shapeCasts_S528x512_S528x512 : S528x512.ShapeCasts S528x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  bcast_S_S10000x256 : S_.BroadcastsInDim S10000x256 (![] : Fin 0 → Fin S10000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  concatenates_S2000x256_S2000x256_S2000x512_d1 : Shape.Concatenates [S2000x256, S2000x256] S2000x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S2000x512 : S1x512.Broadcasts S2000x512
  broadcasts_S1x256_S2000x256 : S1x256.Broadcasts S2000x256
  gather_S10000x256_S320000x1_S320000x256_1_0_n_n_0_1_1256_wf : GatherDims.WF S10000x256 S320000x1 S320000x256 [1] [0] [] [0] [] 1 ![1, 256]
  dot_S4000x528_S528x512_S4000x512_1_0_0_1_n_n_wf : DotDims.WF S4000x528 S528x512 S4000x512 [1] [0] [0] [1] [] []
  dot_S4000x512_S512x256_S4000x256_1_0_0_1_n_n_wf : DotDims.WF S4000x512 S512x256 S4000x256 [1] [0] [0] [1] [] []
  scatter_S10000x256_S320000x1_S320000x256_1_0_0_1_wf : ScatterDims.WF S10000x256 S320000x1 S320000x256 [1] [0] [0] 1
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S320000x256.size a
  hwx0_0 : ∀ i : grid0.Coords, EltTy.bits .bf16 = 32 ∨ (Rect.block (s := S320000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S320000x256.size a
  hwx0_1 : ∀ i : grid0.Coords, EltTy.bits .bf16 = 32 ∨ (Rect.block (s := S320000x256) S4000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S320000x16.size a
  hwx0_2 : ∀ i : grid0.Coords, EltTy.bits .bf16 = 32 ∨ (Rect.block (s := S320000x16) S4000x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S528x512.size a ≤ S528x512.size a
  hwx0_3 : ∀ i : grid0.Coords, EltTy.bits .bf16 = 32 ∨ (Rect.block (s := S528x512) S528x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S320000x256.size a
  hwx0_7 : ∀ i : grid0.Coords, EltTy.bits .f32 = 32 ∨ (Rect.block (s := S320000x256) S4000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .f32 = 32 ∨ (Rect.block (s := S10000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .bf16 = 32 ∨ (Rect.block (s := S512x256) S512x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S10000x256.size a
  hwx1_6 : ∀ i : grid1.Coords, EltTy.bits .f32 = 32 ∨ (Rect.block (s := S10000x256) S2000x256.size (cc1_transform_6 i) (hinb1_6 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S4000x528_S528x512_S4000x512_1_0_0_1_n_n : DotDims S4000x528 S528x512 S4000x512 where
  lhsContracting := [1]
  rhsContracting := [0]
  lhsNonContracting := [0]
  rhsNonContracting := [1]
  lhsBatch := []
  rhsBatch := []
  wf := dot_S4000x528_S528x512_S4000x512_1_0_0_1_n_n_wf
def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v12) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S528x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S4000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000x16 : Shape := ⟨2, ![320000, 16]⟩
abbrev S528x512 : Shape := ⟨2, ![528, 512]⟩
abbrev S512 : Shape := ⟨1, ![512]⟩
abbrev S512x256 : Shape := ⟨2, ![512, 256]⟩
abbrev S256 : Shape := ⟨1, ![256]⟩
abbrev S512x512 : Shape := ⟨2, ![512, 512]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x528 : Shape := ⟨2, ![320000, 528]⟩
abbrev S320000x512 : Shape := ⟨2, ![320000, 512]⟩
abbrev S1x512 : Shape := ⟨2, ![1, 512]⟩
abbrev S1x256 : Shape := ⟨2, ![1, 256]⟩
abbrev S10000x512 : Shape := ⟨2, ![10000, 512]⟩

abbrev nBuf : Space → Nat
  | .hbm => 62
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x16, .f32⟩
  | .hbm, ⟨3, _⟩ => ⟨S528x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x256, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S320000x528, .f32⟩
  | .hbm, ⟨34, _⟩ => ⟨S320000x512, .f32⟩
  | .hbm, ⟨35, _⟩ => ⟨S1x512, .f32⟩
  | .hbm, ⟨36, _⟩ => ⟨S320000x512, .f32⟩
  | .hbm, ⟨37, _⟩ => ⟨S320000x512, .f32⟩
  | .hbm, ⟨38, _⟩ => ⟨S_, .f32⟩
  | .hbm, ⟨39, _⟩ => ⟨S320000x512, .f32⟩
  | .hbm, ⟨40, _⟩ => ⟨S320000x512, .f32⟩
  | .hbm, ⟨41, _⟩ => ⟨S320000x256, .f32⟩
  | .hbm, ⟨42, _⟩ => ⟨S1x256, .f32⟩
  | .hbm, ⟨43, _⟩ => ⟨S320000x256, .f32⟩
  | .hbm, ⟨44, _⟩ => ⟨S320000x256, .f32⟩
  | .hbm, ⟨45, _⟩ => ⟨S_, .f32⟩
  | .hbm, ⟨46, _⟩ => ⟨S10000x256, .f32⟩
  | .hbm, ⟨47, _⟩ => ⟨S320000x1, .i32⟩
  | .hbm, ⟨48, _⟩ => ⟨S10000x256, .f32⟩
  | .hbm, ⟨49, _⟩ => ⟨S10000x512, .f32⟩
  | .hbm, ⟨50, _⟩ => ⟨S10000x512, .f32⟩
  | .hbm, ⟨51, _⟩ => ⟨S1x512, .f32⟩
  | .hbm, ⟨52, _⟩ => ⟨S10000x512, .f32⟩
  | .hbm, ⟨53, _⟩ => ⟨S10000x512, .f32⟩
  | .hbm, ⟨54, _⟩ => ⟨S_, .f32⟩
  | .hbm, ⟨55, _⟩ => ⟨S10000x512, .f32⟩
  | .hbm, ⟨56, _⟩ => ⟨S10000x512, .f32⟩
  | .hbm, ⟨57, _⟩ => ⟨S10000x256, .f32⟩
  | .hbm, ⟨58, _⟩ => ⟨S1x256, .f32⟩
  | .hbm, ⟨59, _⟩ => ⟨S10000x256, .f32⟩
  | .hbm, ⟨60, _⟩ => ⟨S10000x256, .f32⟩
  | .hbm, ⟨61, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x16_S320000x528_d1 : Shape.Concatenates [S320000x256, S320000x256, S320000x16] S320000x528 1
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S10000x256 : S_.BroadcastsInDim S10000x256 (![] : Fin 0 → Fin S10000x256.rank)
  concatenates_S10000x256_S10000x256_S10000x512_d1 : Shape.Concatenates [S10000x256, S10000x256] S10000x512 1
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  dot_S320000x528_S528x512_S320000x512_1_0_0_1_n_n_wf : DotDims.WF S320000x528 S528x512 S320000x512 [1] [0] [0] [1] [] []
  dot_S320000x512_S512x256_S320000x256_1_0_0_1_n_n_wf : DotDims.WF S320000x512 S512x256 S320000x256 [1] [0] [0] [1] [] []
  scatter_S10000x256_S320000x1_S320000x256_1_0_0_1_wf : ScatterDims.WF S10000x256 S320000x1 S320000x256 [1] [0] [0] 1
  dot_S10000x512_S512x512_S10000x512_1_0_0_1_n_n_wf : DotDims.WF S10000x512 S512x512 S10000x512 [1] [0] [0] [1] [] []
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x528_S528x512_S320000x512_1_0_0_1_n_n : DotDims S320000x528 S528x512 S320000x512 where
  lhsContracting := [1]
  rhsContracting := [0]
  lhsNonContracting := [0]
  rhsNonContracting := [1]
  lhsBatch := []
  rhsBatch := []
  wf := dot_S320000x528_S528x512_S320000x512_1_0_0_1_n_n_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.Spec.lean ====
/-
  The mathematics both programs compute, stated once over plain index types.

  A node-update layer of a message-passing network is made of two small perceptrons, each applied ROW BY ROW:
  for a row `x` of `K` numbers, weights `w₁ : K × H`, `w₂ : H × M` and biases `b₁ : H`, `b₂ : M`,

      denseRow z x w₁ b₁ w₂ b₂ q = (∑ h, max ((∑ k, x k · w₁ k h) + b₁ h) z · w₂ h q) + b₂ q ,

  the hidden layer clipped below at `z` (the rectifier's zero). The row a perceptron is fed is itself several
  rows laid side by side (`joinRow2`, `joinRow3`): a node's features beside its neighbour's beside the edge's, or a
  node's features beside the sum of its incoming messages. The last lemmas say that an array built by joining
  arrays along their columns has, as its row `r`, the rows `r` of the pieces laid side by side.
-/
import Idealize.ShloMosaic.Lib.ValueIdx
import Idealize.ShloMosaic.Lib.Pipeline.Value

noncomputable section

open scoped BigOperators

namespace Cert.Spec

open Idealize.ShloMosaic Idealize.ShloMosaic.ValueIdx

/-- The rectifier's zero: the float word of `0.0`, never evaluated. -/
abbrev zero : EReal := Ideal.ofBits .f32 0x00000000#32

/-! ## Rows side by side -/

/-- Two rows side by side: positions below `n0` read the first, the rest the second. -/
def joinRow2 {α : Type} {n0 n1 N : Nat} (hN : N = n0 + n1) (a : Fin n0 → α) (b : Fin n1 → α) (k : Fin N) : α :=
  if h0 : k.val < n0 then a ⟨k.val, h0⟩ else b ⟨k.val - n0, by have := k.isLt; omega⟩

/-- Three rows side by side. -/
def joinRow3 {α : Type} {n0 n1 n2 N : Nat} (hN : N = n0 + n1 + n2) (a : Fin n0 → α) (b : Fin n1 → α) (c : Fin n2 → α)
    (k : Fin N) : α :=
  if h0 : k.val < n0 then a ⟨k.val, h0⟩
  else if h1 : k.val < n0 + n1 then b ⟨k.val - n0, by omega⟩
  else c ⟨k.val - (n0 + n1), by have := k.isLt; omega⟩

/-! ## The perceptron on one row -/

/-- A two-layer perceptron on the row `x`, its hidden layer clipped below at `z`, read at output position `q`. -/
def denseRow {K H M : Nat} (z : EReal) (x : Fin K → EReal) (w1 : Fin K → Fin H → EReal) (b1 : Fin H → EReal)
    (w2 : Fin H → Fin M → EReal) (b2 : Fin M → EReal) (q : Fin M) : EReal :=
  (∑ h : Fin H, max ((∑ k : Fin K, x k * w1 k h) + b1 h) z * w2 h q) + b2 q

/-! ## The perceptron on every row of an array -/

section Rows
variable {R n0 n1 n2 K H M : Nat}

/-- The perceptron applied to every row of three arrays joined along their columns: entry `(r, q)` is
    `denseRow` on the three rows `r` side by side, read at `q`. -/
def mlp3Rows (hK : K = n0 + n1 + n2) (z : EReal) (X0 : (⟨2, ![R, n0]⟩ : Shape).Idx → EReal)
    (X1 : (⟨2, ![R, n1]⟩ : Shape).Idx → EReal) (X2 : (⟨2, ![R, n2]⟩ : Shape).Idx → EReal)
    (W1 : (⟨2, ![K, H]⟩ : Shape).Idx → EReal) (b1 : Fin H → EReal) (W2 : (⟨2, ![H, M]⟩ : Shape).Idx → EReal)
    (b2 : Fin M → EReal) : (⟨2, ![R, M]⟩ : Shape).Idx → EReal :=
  fun i => denseRow z
    (joinRow3 hK (fun k => X0 (ix2 ⟨(i 0).val, idx2_lt0 i⟩ k)) (fun k => X1 (ix2 ⟨(i 0).val, idx2_lt0 i⟩ k))
      (fun k => X2 (ix2 ⟨(i 0).val, idx2_lt0 i⟩ k)))
    (fun k h => W1 (ix2 k h)) b1 (fun h j => W2 (ix2 h j)) b2 ⟨(i 1).val, idx2_lt1 i⟩

theorem mlp3Rows_apply (hK : K = n0 + n1 + n2) (z : EReal) (X0 : (⟨2, ![R, n0]⟩ : Shape).Idx → EReal)
    (X1 : (⟨2, ![R, n1]⟩ : Shape).Idx → EReal) (X2 : (⟨2, ![R, n2]⟩ : Shape).Idx → EReal)
    (W1 : (⟨2, ![K, H]⟩ : Shape).Idx → EReal) (b1 : Fin H → EReal) (W2 : (⟨2, ![H, M]⟩ : Shape).Idx → EReal)
    (b2 : Fin M → EReal) (r : Fin R) (q : Fin M) :
    mlp3Rows hK z X0 X1 X2 W1 b1 W2 b2 (ix2 r q)
      = denseRow z (joinRow3 hK (fun k => X0 (ix2 r k)) (fun k => X1 (ix2 r k)) (fun k => X2 (ix2 r k)))
          (fun k h => W1 (ix2 k h)) b1 (fun h j => W2 (ix2 h j)) b2 q := rfl

/-- Every row of the first array plus the perceptron on that row beside the second array's row: entry `(r, q)`
    is `X0 (r, q) + denseRow (X0's row r beside X1's row r) q`. -/
def residual2Rows (hK : K = M + n1) (z : EReal) (X0 : (⟨2, ![R, M]⟩ : Shape).Idx → EReal)
    (X1 : (⟨2, ![R, n1]⟩ : Shape).Idx → EReal) (W1 : (⟨2, ![K, H]⟩ : Shape).Idx → EReal) (b1 : Fin H → EReal)
    (W2 : (⟨2, ![H, M]⟩ : Shape).Idx → EReal) (b2 : Fin M → EReal) : (⟨2, ![R, M]⟩ : Shape).Idx → EReal :=
  fun i => X0 i + denseRow z
    (joinRow2 hK (fun k => X0 (ix2 ⟨(i 0).val, idx2_lt0 i⟩ k)) (fun k => X1 (ix2 ⟨(i 0).val, idx2_lt0 i⟩ k)))
    (fun k h => W1 (ix2 k h)) b1 (fun h j => W2 (ix2 h j)) b2 ⟨(i 1).val, idx2_lt1 i⟩

theorem residual2Rows_apply (hK : K = M + n1) (z : EReal) (X0 : (⟨2, ![R, M]⟩ : Shape).Idx → EReal)
    (X1 : (⟨2, ![R, n1]⟩ : Shape).Idx → EReal) (W1 : (⟨2, ![K, H]⟩ : Shape).Idx → EReal) (b1 : Fin H → EReal)
    (W2 : (⟨2, ![H, M]⟩ : Shape).Idx → EReal) (b2 : Fin M → EReal) (r : Fin R) (q : Fin M) :
    residual2Rows hK z X0 X1 W1 b1 W2 b2 (ix2 r q)
      = X0 (ix2 r q) + denseRow z (joinRow2 hK (fun k => X0 (ix2 r k)) (fun k => X1 (ix2 r k)))
          (fun k h => W1 (ix2 k h)) b1 (fun h j => W2 (ix2 h j)) b2 q := rfl

end Rows

/-! ## Arrays joined along their columns, read at a row -/

section Join
variable {α : Type} {m n0 n1 n2 N : Nat}

/-- Row `r` of two arrays joined along their columns is their rows `r` side by side. -/
theorem concat_cols2 (hN : N = n0 + n1) (X0 : (⟨2, ![m, n0]⟩ : Shape).Idx → α) (X1 : (⟨2, ![m, n1]⟩ : Shape).Idx → α)
    (h : Shape.Concatenates [(⟨2, ![m, n0]⟩ : Shape), ⟨2, ![m, n1]⟩] ⟨2, ![m, N]⟩ 1) (r : Fin m) (k : Fin N) :
    concatenate ⟨2, ![m, N]⟩ 1 [⟨⟨2, ![m, n0]⟩, X0⟩, ⟨⟨2, ![m, n1]⟩, X1⟩] h (ix2 r k)
      = joinRow2 hN (fun k => X0 (ix2 r k)) (fun k => X1 (ix2 r k)) k := by
  unfold joinRow2
  split
  · next h0 =>
    exact concatenate_pair_apply_left 1 X0 X1 h (ix2 r k) rfl (ix2 r ⟨k.val, h0⟩)
      (fun b => by match b with | ⟨0, _⟩ => rfl | ⟨1, _⟩ => rfl)
  · next h0 =>
    have hk := k.isLt
    exact concatenate_pair_apply_right 1 X0 X1 h (ix2 r k) rfl rfl (ix2 r ⟨k.val - n0, by omega⟩)
      (fun b hb => by match b with | ⟨0, _⟩ => rfl | ⟨1, _⟩ => exact absurd rfl hb)
      (by show k.val - n0 + n0 = k.val; omega)

/-- Row `r` of three arrays joined along their columns is their rows `r` side by side. -/
theorem concat_cols3 (hN : N = n0 + n1 + n2) (X0 : (⟨2, ![m, n0]⟩ : Shape).Idx → α)
    (X1 : (⟨2, ![m, n1]⟩ : Shape).Idx → α) (X2 : (⟨2, ![m, n2]⟩ : Shape).Idx → α)
    (h : Shape.Concatenates [(⟨2, ![m, n0]⟩ : Shape), ⟨2, ![m, n1]⟩, ⟨2, ![m, n2]⟩] ⟨2, ![m, N]⟩ 1) (r : Fin m) (k : Fin N) :
    concatenate ⟨2, ![m, N]⟩ 1 [⟨⟨2, ![m, n0]⟩, X0⟩, ⟨⟨2, ![m, n1]⟩, X1⟩, ⟨⟨2, ![m, n2]⟩, X2⟩] h (ix2 r k)
      = joinRow3 hN (fun k => X0 (ix2 r k)) (fun k => X1 (ix2 r k)) (fun k => X2 (ix2 r k)) k := by
  have hk := k.isLt
  let xs : List ((s : Shape) × (s.Idx → α)) := [⟨⟨2, ![m, n0]⟩, X0⟩, ⟨⟨2, ![m, n1]⟩, X1⟩, ⟨⟨2, ![m, n2]⟩, X2⟩]
  unfold joinRow3
  split
  · next h0 =>
    exact concatenate_apply_piece 1 xs h (ix2 r k) 0 (by show 0 < 3; omega) ⟨2, ![m, n0]⟩ X0 rfl rfl 0 rfl
      (ix2 r ⟨k.val, h0⟩) (fun b hb => by match b with | ⟨0, _⟩ => rfl | ⟨1, _⟩ => exact absurd rfl hb)
      (by show 0 + k.val = k.val; omega)
  · split
    · next h0 h1 =>
      exact concatenate_apply_piece 1 xs h (ix2 r k) 1 (by show 1 < 3; omega) ⟨2, ![m, n1]⟩ X1 rfl rfl n0 rfl
        (ix2 r ⟨k.val - n0, by omega⟩) (fun b hb => by match b with | ⟨0, _⟩ => rfl | ⟨1, _⟩ => exact absurd rfl hb)
        (by show n0 + (k.val - n0) = k.val; omega)
    · next h0 h1 =>
      exact concatenate_apply_piece 1 xs h (ix2 r k) 2 (by show 2 < 3; omega) ⟨2, ![m, n2]⟩ X2 rfl rfl (n0 + n1) rfl
        (ix2 r ⟨k.val - (n0 + n1), by omega⟩) (fun b hb => by match b with | ⟨0, _⟩ => rfl | ⟨1, _⟩ => exact absurd rfl hb)
        (by show n0 + n1 + (k.val - (n0 + n1)) = k.val; omega)

end Join

end Cert.Spec

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.KernelPay.lean ====
/-
  Each kernel body's arithmetic, read at one entry of the block it stores.

  The message kernel's body takes the rows of a block of gathered target features, of gathered source features and of
  edge features, lays them side by side, multiplies by the first weight matrix and adds the first bias, clips below
  at zero, multiplies by the second weight matrix and adds the second bias. The products run into a zero
  accumulator, so each is a plain sum over the contracted index; the change of float format between the layers is
  the identity on extended reals. Entry `(p, q)` of the stored block is therefore the two-layer perceptron
  `Spec.denseRow` on row `p` of the joined block, read at `q`. The update kernel's body does the same to the rows
  of node features beside aggregated messages, and adds the node features back.
-/
import proofs.«141763_j43782896615992_1_alg».proof.Proof.Gen.KernelIdeal.Skeleton
import proofs.«141763_j43782896615992_1_alg».proof.Proof.Spec
import proofs.«141763_j43782896615992_1_alg».proof.Proof.LibRowOps
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Spec

/-! ## The operations that are not pointwise, at `(p, q)` -/

/-- A bias row spread over every row of an array reads, at `(p, q)`, as its entry `q`. -/
theorem bias_apply {m n : Nat} (v : (⟨2, ![1, n]⟩ : Shape).Idx → EReal)
    (h : (⟨2, ![1, n]⟩ : Shape).Broadcasts ⟨2, ![m, n]⟩) (p : Fin m) (q : Fin n) :
    broadcastTo ⟨2, ![m, n]⟩ v h (ix2 p q) = v (ix2 0 q) :=
  broadcastTo_apply v h (ix2 p q) (ix2 0 q) (fun a => by
    have hq := q.isLt
    match a with
    | ⟨0, _⟩ => show 0 = if (1 : Nat) = 1 then 0 else p.val; rw [if_pos rfl]
    | ⟨1, _⟩ => show q.val = if n = 1 then 0 else q.val; split <;> omega)

/-- The message kernel's first product: a row of the joined block against a column of the first weights. -/
theorem matmul0a_apply (l : FVec Ideal S4000x528 .bf16) (r : FVec Ideal S528x512 .bf16) (p : Fin 4000) (q : Fin 512) :
    matmul dot_S4000x528_S528x512_S4000x512_1_0_0_1_n_n none l r (constant (F := Ideal) S4000x512 .f32 0x00000000#32) (ix2 p q)
      = ∑ k : Fin 528, l (ix2 p k) * r (ix2 k q) :=
  Cert.LibRowOps.matmul_plain_zero_apply 4000 528 512 l r p q

/-- The message kernel's second product. -/
theorem matmul0b_apply (l : FVec Ideal S4000x512 .bf16) (r : FVec Ideal S512x256 .bf16) (p : Fin 4000) (q : Fin 256) :
    matmul dot_S4000x512_S512x256_S4000x256_1_0_0_1_n_n none l r (constant (F := Ideal) S4000x256 .f32 0x00000000#32) (ix2 p q)
      = ∑ k : Fin 512, l (ix2 p k) * r (ix2 k q) :=
  Cert.LibRowOps.matmul_plain_zero_apply 4000 512 256 l r p q

/-- The update kernel's first product. -/
theorem matmul1a_apply (l : FVec Ideal S2000x512 .bf16) (r : FVec Ideal S512x512 .bf16) (p : Fin 2000) (q : Fin 512) :
    matmul dot_S2000x512_S512x512_S2000x512_1_0_0_1_n_n none l r (constant (F := Ideal) S2000x512 .f32 0x00000000#32) (ix2 p q)
      = ∑ k : Fin 512, l (ix2 p k) * r (ix2 k q) :=
  Cert.LibRowOps.matmul_plain_zero_apply 2000 512 512 l r p q

/-- The update kernel's second product. -/
theorem matmul1b_apply (l : FVec Ideal S2000x512 .bf16) (r : FVec Ideal S512x256 .bf16) (p : Fin 2000) (q : Fin 256) :
    matmul dot_S2000x512_S512x256_S2000x256_1_0_0_1_n_n none l r (constant (F := Ideal) S2000x256 .f32 0x00000000#32) (ix2 p q)
      = ∑ k : Fin 512, l (ix2 p k) * r (ix2 k q) :=
  Cert.LibRowOps.matmul_plain_zero_apply 2000 512 256 l r p q

/-! ## The two bodies -/

/-- Entry `(p, q)` of the block the message kernel stores: the perceptron on row `p` of the three input blocks side
    by side. -/
theorem message_apply (x0 x1 : Vec Ideal S4000x256 .bf16) (x2 : Vec Ideal S4000x16 .bf16) (x3 : Vec Ideal S528x512 .bf16)
    (x4 : Vec Ideal S1x512 .f32) (x5 : Vec Ideal S512x256 .bf16) (x6 : Vec Ideal S1x256 .f32) (p : Fin 4000) (q : Fin 256) :
    k0_pay1 (F := Ideal) x0 x1 x2 x3 x4 x5 x6 (ix2 p q)
      = denseRow zero
          (joinRow3 (show 528 = 256 + 256 + 16 from rfl) (fun k => x0 (ix2 p k)) (fun k => x1 (ix2 p k)) (fun k => x2 (ix2 p k)))
          (fun k h => x3 (ix2 k h)) (fun h => x4 (ix2 0 h)) (fun h j => x5 (ix2 h j)) (fun j => x6 (ix2 0 j)) q := by
  unfold k0_pay1 denseRow
  simp only [shapeCast_self]
  rw [addf_apply, matmul0b_apply, bias_apply]
  refine congrArg (· + x6 (ix2 0 q)) (Finset.sum_congr rfl fun h _ => ?_)
  rw [truncf_apply, maximumf_apply, addf_apply, matmul0a_apply, bias_apply, broadcast_apply]
  refine congrArg (fun s => max (s + x4 (ix2 0 h)) zero * x5 (ix2 h q)) (Finset.sum_congr rfl fun k _ => ?_)
  rw [concat_cols3 (show 528 = 256 + 256 + 16 from rfl)]
  simp only [shapeCast_self]

/-- Entry `(p, q)` of the block the update kernel stores: the node's feature plus the perceptron on row `p` of the
    feature block beside the aggregated-message block. -/
theorem update_apply (v0 v1 : Vec Ideal S2000x256 .f32) (v5 : Vec Ideal S512x512 .bf16) (v8 : Vec Ideal S1x512 .f32)
    (v15 : Vec Ideal S512x256 .bf16) (v18 : Vec Ideal S1x256 .f32) (p : Fin 2000) (q : Fin 256) :
    k1_pay1 (F := Ideal) v0 v1 v5 v8 v15 v18 (ix2 p q)
      = v0 (ix2 p q) + denseRow zero
          (joinRow2 (show 512 = 256 + 256 from rfl) (fun k => v0 (ix2 p k)) (fun k => v1 (ix2 p k)))
          (fun k h => v5 (ix2 k h)) (fun h => v8 (ix2 0 h)) (fun h j => v15 (ix2 h j)) (fun j => v18 (ix2 0 j)) q := by
  unfold k1_pay1 denseRow
  simp only [shapeCast_self]
  rw [addf_apply, addf_apply, matmul1b_apply, bias_apply]
  refine congrArg (fun s => v0 (ix2 p q) + (s + v18 (ix2 0 q))) (Finset.sum_congr rfl fun h _ => ?_)
  rw [truncf_apply, maximumf_apply, addf_apply, matmul1a_apply, bias_apply, broadcast_apply]
  refine congrArg (fun s => max (s + v8 (ix2 0 h)) zero * v15 (ix2 h q)) (Finset.sum_congr rfl fun k _ => ?_)
  rw [truncf_apply, concat_cols2 (show 512 = 256 + 256 from rfl)]
  simp only [shapeCast_self]

end Cert.KernelIdeal.Pay

end
-- ==== Proof.Regions.lean ====
/-
  Each region's output array as one function of the arrays the region finds.

  The message region walks the 320000 edges in 80 blocks of 4000 rows. At block `t` the three edge-sized inputs
  are fetched as their rows `4000 t … 4000 t + 3999` and the four weight and bias arrays whole; the body stores a
  4000 × 256 block which is written back as the same rows of the output. Since the perceptron works row by row,
  the block written back at `t` is the restriction to those rows of ONE array, `Spec.mlp3Rows` of the whole inputs;
  the 80 blocks cover every row, so the output array ends as that function. The update region does the same over
  10000 nodes in 5 blocks of 2000 rows with `Spec.residual2Rows`.
-/
import proofs.«141763_j43782896615992_1_alg».proof.Proof.Gen.KernelIdeal.Frame
import proofs.«141763_j43782896615992_1_alg».proof.Proof.KernelPay

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay Cert.Spec

variable (V : (c : Dev nD) → (b : Ref sig .tc) → Buf (Elt Ideal) ((c : Thread nD τ).loc b))

theorem hz : (![0, 0] : Fin 2 → Nat) = fun _ => 0 := funext fun a => by fin_cases a <;> rfl

/-! ## The message region -/

/-- What the message region leaves in its output array: the perceptron on every edge's joined row. -/
def messages (c : Dev nD) : S320000x256.Idx → EReal :=
  mlp3Rows (show 528 = 256 + 256 + 16 from rfl) zero (V c main_v12) (V c main_v19) (V c main_v5) (V c main_v20)
    (fun h => V c main_v22 (ix2 0 h)) (V c main_v21) (fun j => V c main_v23 (ix2 0 j))

/-- The printed index maps over the 80 points: the edge-sized windows sit at block row `t`, the weights at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The row of the edge arrays that row `p` of block `t` is. -/
def row0 (t : Fin cfg0.N) (p : Fin 4000) : Fin 320000 :=
  ⟨t.val * 4000 + p.val, by have ht : t.val < 80 := t.isLt; have := p.isLt; omega⟩

/-- If the input blocks are the rows of block `t` of the edge arrays and the weight blocks are the weight arrays,
    the stored block's entry `(p, q)` is the whole-array function at the block's row. -/
theorem message_block (t : Fin cfg0.N) (x0 x1 : Vec Ideal S4000x256 .bf16) (x2 : Vec Ideal S4000x16 .bf16)
    (x3 : Vec Ideal S528x512 .bf16) (x4 : Vec Ideal S1x512 .f32) (x5 : Vec Ideal S512x256 .bf16) (x6 : Vec Ideal S1x256 .f32)
    (X0 X1 : S320000x256.Idx → EReal) (X2 : S320000x16.Idx → EReal) (W1 : S528x512.Idx → EReal) (B1 : S1x512.Idx → EReal)
    (W2 : S512x256.Idx → EReal) (B2 : S1x256.Idx → EReal)
    (h0 : ∀ (p : Fin 4000) (k : Fin 256), x0 (ix2 p k) = X0 (ix2 (row0 t p) k))
    (h1 : ∀ (p : Fin 4000) (k : Fin 256), x1 (ix2 p k) = X1 (ix2 (row0 t p) k))
    (h2 : ∀ (p : Fin 4000) (k : Fin 16), x2 (ix2 p k) = X2 (ix2 (row0 t p) k))
    (h3 : ∀ (k : Fin 528) (h : Fin 512), x3 (ix2 k h) = W1 (ix2 k h))
    (h4 : ∀ h : Fin 512, x4 (ix2 0 h) = B1 (ix2 0 h))
    (h5 : ∀ (h : Fin 512) (j : Fin 256), x5 (ix2 h j) = W2 (ix2 h j))
    (h6 : ∀ j : Fin 256, x6 (ix2 0 j) = B2 (ix2 0 j))
    (p : Fin 4000) (q : Fin 256) :
    k0_pay1 (F := Ideal) x0 x1 x2 x3 x4 x5 x6 (ix2 p q)
      = mlp3Rows (show 528 = 256 + 256 + 16 from rfl) zero X0 X1 X2 W1 (fun h => B1 (ix2 0 h)) W2 (fun j => B2 (ix2 0 j))
          (ix2 (row0 t p) q) := by
  rw [message_apply, mlp3Rows_apply]
  simp only [h0, h1, h2, h3, h4, h5, h6]

/-- WHAT POINT `t` WRITES BACK is block `t` of `messages`. -/
theorem flushed0 (c : Dev nD) (t : Fin cfg0.N) :
    (dat0 V c).flushed 7 t = ((cfg0.win 7).blk t).view.read (Elt Ideal) (messages V c) := by
  show (cfg0.win 7).cut (grid0.coords t) ((dat0 V c).after 7 t) = _
  rw [after0_7]
  unfold out0_7
  rw [View.canon_unit_zero hz]
  simp only [View.ld_unit_zero (S := S4000x256) hz, View.ld_unit_zero (S := S4000x16) hz, View.ld_unit_zero (S := S528x512) hz,
    View.ld_unit_zero (S := S1x512) hz, View.ld_unit_zero (S := S512x256) hz, View.ld_unit_zero (S := S1x256) hz]
  obtain ⟨a0, a1, b0, b1, c0, c1, d0, d1, e0, e1, f0, f1, g0, g1, o0, o1⟩ := idx_facts0 t
  have h0 : ∀ (p : Fin 4000) (k : Fin 256), iblk0 V c 0 t (ix2 p k) = V c main_v12 (ix2 (row0 t p) k) := fun p k => by
    show V c main_v12 (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 256 + 1 * k.val = k.val; omega
  have h1 : ∀ (p : Fin 4000) (k : Fin 256), iblk0 V c 1 t (ix2 p k) = V c main_v19 (ix2 (row0 t p) k) := fun p k => by
    show V c main_v19 (((cfg0.win 1).blk t).view.emb (ix2 p k)) = _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 256 + 1 * k.val = k.val; omega
  have h2 : ∀ (p : Fin 4000) (k : Fin 16), iblk0 V c 2 t (ix2 p k) = V c main_v5 (ix2 (row0 t p) k) := fun p k => by
    show V c main_v5 (((cfg0.win 2).blk t).view.emb (ix2 p k)) = _
    refine congrArg _ (funext fun a => Fin.ext ?_)
    match a with
    | ⟨0, _⟩ => show win0_2.index t (0 : Fin 2) * 4000 + 1 * p.val = t.val * 4000 + p.val; omega
    | ⟨1, _⟩ => show win0_2.index t (1 : Fin 2) * 16 + 1 * k.val = k.val; omega
  have h3 : ∀ (k : Fin 528) (h : Fin 512), iblk0 V c 3 t (ix2 k h) = V c main_v20 (ix2 k h) := fun k h => by
    show V c main_v20 (((cfg0.win 3).blk t).view.emb (ix2 k h)) = _
    refine congrArg _ (funext fun a => Fin.ext ?_)
    match a with
    | ⟨0, _⟩ => show win0_3.index t (0 : Fin 2) * 528 + 1 * k.val = k.val; omega
    | ⟨1, _⟩ => show win0_3.index t (1 : Fin 2) * 512 + 1 * h.val = h.val; omega
  have h4 : ∀ h : Fin 512, iblk0 V c 4 t (ix2 0 h) = V c main_v22 (ix2 0 h) := fun h => by
    show V c main_v22 (((cfg0.win 4).blk t).view.emb (ix2 0 h)) = _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * h.val = h.val; omega
  have h5 : ∀ (h : Fin 512) (j : Fin 256), iblk0 V c 5 t (ix2 h j) = V c main_v21 (ix2 h j) := fun h j => by
    show V c main_v21 (((cfg0.win 5).blk t).view.emb (ix2 h j)) = _
    refine congrArg _ (funext fun a => Fin.ext ?_)
    match a with
    | ⟨0, _⟩ => show win0_5.index t (0 : Fin 2) * 512 + 1 * h.val = h.val; omega
    | ⟨1, _⟩ => show win0_5.index t (1 : Fin 2) * 256 + 1 * j.val = j.val; omega
  have h6 : ∀ j : Fin 256, iblk0 V c 6 t (ix2 0 j) = V c main_v23 (ix2 0 j) := fun j => by
    show V c main_v23 (((cfg0.win 6).blk t).view.emb (ix2 0 j)) = _
    refine congrArg _ (funext fun a => Fin.ext ?_)
    match a with
    | ⟨0, _⟩ => show win0_6.index t (0 : Fin 2) * 1 + 1 * 0 = 0; omega
    | ⟨1, _⟩ => show win0_6.index t (1 : Fin 2) * 256 + 1 * j.val = j.val; omega
  funext j
  obtain ⟨p, q, rfl⟩ : ∃ (p : Fin 4000) (q : Fin 256), j = ix2 p q := ⟨j 0, j 1, eq_ix2 j⟩
  have hemb : ((cfg0.win 7).blk t).view.emb (ix2 p q) = ix2 (row0 t p) q := by
    refine funext fun a => Fin.ext ?_
    match a with
    | ⟨0, _⟩ => show win0_7.index t (0 : Fin 2) * 4000 + 1 * p.val = t.val * 4000 + p.val; omega
    | ⟨1, _⟩ => show win0_7.index t (1 : Fin 2) * 256 + 1 * q.val = q.val; omega
  show k0_pay1 (F := Ideal) (iblk0 V c 0 t) (iblk0 V c 1 t) (iblk0 V c 2 t) (iblk0 V c 3 t) (iblk0 V c 4 t) (iblk0 V c 5 t) (iblk0 V c 6 t) (ix2 p q)
      = messages V c (((cfg0.win 7).blk t).view.emb (ix2 p q))
  rw [hemb]
  exact message_block t (iblk0 V c 0 t) (iblk0 V c 1 t) (iblk0 V c 2 t) (iblk0 V c 3 t) (iblk0 V c 4 t) (iblk0 V c 5 t) (iblk0 V c 6 t)
    (V c main_v12) (V c main_v19) (V c main_v5) (V c main_v20) (V c main_v22) (V c main_v21) (V c main_v23) h0 h1 h2 h3 h4 h5 h6 p q

/-- An index of the output array is in point `t`'s block iff each coordinate is in the block's range on its axis. -/
theorem mem_blk0 (t : Fin cfg0.N) (i : S320000x256.Idx) :
    i ∈ ((cfg0.win 7).blk t).view.set ↔ ∀ a : Fin 2, win0_7.index t a * S4000x256.size a ≤ (i a).val ∧ (i a).val < win0_7.index t a * S4000x256.size a + S4000x256.size a := by
  show i ∈ ((View.whole main_v24).slice (win0_7.rect t)).set ↔ _
  rw [View.set_slice_whole, Rect.mem_set_unit]
  exact Iff.rfl

/-- Every entry of the output array lies in the block of the point its row falls in. -/
theorem cover0 (i : S320000x256.Idx) :
    ∃ t : Fin cfg0.N, (cfg0.win 7).flush t = true ∧ i ∈ ((cfg0.win 7).blk t).view.set := by
  have hi0 : (i 0).val < 320000 := (i 0).isLt
  have hi1 : (i 1).val < 256 := (i 1).isLt
  have ht : (i 0).val / 4000 < cfg0.N := by show (i 0).val / 4000 < 80; omega
  obtain ⟨-, -, -, -, -, -, -, -, -, -, -, -, -, -, o0, o1⟩ := idx_facts0 ⟨(i 0).val / 4000, ht⟩
  have o0' : win0_7.index ⟨(i 0).val / 4000, ht⟩ (0 : Fin 2) = (i 0).val / 4000 := o0
  refine ⟨⟨(i 0).val / 4000, ht⟩, flush0_7 _, ?_⟩
  rw [mem_blk0]
  intro a
  match a with
  | ⟨0, _⟩ =>
    show win0_7.index ⟨(i 0).val / 4000, ht⟩ (0 : Fin 2) * 4000 ≤ (i 0).val ∧ (i 0).val < win0_7.index ⟨(i 0).val / 4000, ht⟩ (0 : Fin 2) * 4000 + 4000
    omega
  | ⟨1, _⟩ =>
    show win0_7.index ⟨(i 0).val / 4000, ht⟩ (1 : Fin 2) * 256 ≤ (i 1).val ∧ (i 1).val < win0_7.index ⟨(i 0).val / 4000, ht⟩ (1 : Fin 2) * 256 + 256
    omega

/-- THE MESSAGE ARRAY after the region: `messages` of the arrays the region found. -/
theorem final0 (c : Dev nD) : (dat0 V c).arrAt 7 cfg0.N = messages V c :=
  (dat0 V c).arrAt_eq_of_cover 7 (messages V c) (fun t _ => flushed0 V c t) cover0

/-! ## The update region -/

/-- What the update region leaves in its output array: each node's features plus the perceptron on its features
    beside its aggregated messages. -/
def updated (c : Dev nD) : S10000x256.Idx → EReal :=
  residual2Rows (show 512 = 256 + 256 from rfl) zero (V c main_arg0) (V c main_v27) (V c main_v28)
    (fun h => V c main_v30 (ix2 0 h)) (V c main_v29) (fun j => V c main_v31 (ix2 0 j))

/-- The printed index maps over the 5 points: the node-sized windows sit at block row `t`, the weights at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The row of the node arrays that row `p` of block `t` is. -/
def row1 (t : Fin cfg1.N) (p : Fin 2000) : Fin 10000 :=
  ⟨t.val * 2000 + p.val, by have ht : t.val < 5 := t.isLt; have := p.isLt; omega⟩

/-- If the two node-sized input blocks are the rows of block `t` of their arrays and the weight blocks are the weight
    arrays, the stored block's entry `(p, q)` is the whole-array function at the block's row. -/
theorem update_block (t : Fin cfg1.N) (v0 v1 : Vec Ideal S2000x256 .f32) (v5 : Vec Ideal S512x512 .bf16)
    (v8 : Vec Ideal S1x512 .f32) (v15 : Vec Ideal S512x256 .bf16) (v18 : Vec Ideal S1x256 .f32)
    (X0 X1 : S10000x256.Idx → EReal) (W1 : S512x512.Idx → EReal) (B1 : S1x512.Idx → EReal)
    (W2 : S512x256.Idx → EReal) (B2 : S1x256.Idx → EReal)
    (h0 : ∀ (p : Fin 2000) (k : Fin 256), v0 (ix2 p k) = X0 (ix2 (row1 t p) k))
    (h1 : ∀ (p : Fin 2000) (k : Fin 256), v1 (ix2 p k) = X1 (ix2 (row1 t p) k))
    (h2 : ∀ (k : Fin 512) (h : Fin 512), v5 (ix2 k h) = W1 (ix2 k h))
    (h3 : ∀ h : Fin 512, v8 (ix2 0 h) = B1 (ix2 0 h))
    (h4 : ∀ (h : Fin 512) (j : Fin 256), v15 (ix2 h j) = W2 (ix2 h j))
    (h5 : ∀ j : Fin 256, v18 (ix2 0 j) = B2 (ix2 0 j))
    (p : Fin 2000) (q : Fin 256) :
    k1_pay1 (F := Ideal) v0 v1 v5 v8 v15 v18 (ix2 p q)
      = residual2Rows (show 512 = 256 + 256 from rfl) zero X0 X1 W1 (fun h => B1 (ix2 0 h)) W2 (fun j => B2 (ix2 0 j))
          (ix2 (row1 t p) q) := by
  rw [update_apply, residual2Rows_apply]
  simp only [h0, h1, h2, h3, h4, h5]

/-- WHAT POINT `t` WRITES BACK is block `t` of `updated`. -/
theorem flushed1 (c : Dev nD) (t : Fin cfg1.N) :
    (dat1 V c).flushed 6 t = ((cfg1.win 6).blk t).view.read (Elt Ideal) (updated V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S512x512) hz, View.ld_unit_zero (S := S1x512) hz,
    View.ld_unit_zero (S := S512x256) hz, View.ld_unit_zero (S := S1x256) hz]
  obtain ⟨a0, a1, b0, b1, c0, c1, d0, d1, e0, e1, f0, f1, o0, o1⟩ := idx_facts1 t
  have h0 : ∀ (p : Fin 2000) (k : Fin 256), iblk1 V c 0 t (ix2 p k) = V c main_arg0 (ix2 (row1 t p) k) := fun p k => by
    show V c main_arg0 (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  have h1 : ∀ (p : Fin 2000) (k : Fin 256), iblk1 V c 1 t (ix2 p k) = V c main_v27 (ix2 (row1 t p) k) := fun p k => by
    show V c main_v27 (((cfg1.win 1).blk t).view.emb (ix2 p k)) = _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 256 + 1 * k.val = k.val; omega
  have h2 : ∀ (k : Fin 512) (h : Fin 512), iblk1 V c 2 t (ix2 k h) = V c main_v28 (ix2 k h) := fun k h => by
    show V c main_v28 (((cfg1.win 2).blk t).view.emb (ix2 k h)) = _
    refine congrArg _ (funext fun a => Fin.ext ?_)
    match a with
    | ⟨0, _⟩ => show win1_2.index t (0 : Fin 2) * 512 + 1 * k.val = k.val; omega
    | ⟨1, _⟩ => show win1_2.index t (1 : Fin 2) * 512 + 1 * h.val = h.val; omega
  have h3 : ∀ h : Fin 512, iblk1 V c 3 t (ix2 0 h) = V c main_v30 (ix2 0 h) := fun h => by
    show V c main_v30 (((cfg1.win 3).blk t).view.emb (ix2 0 h)) = _
    refine congrArg _ (funext fun a => Fin.ext ?_)
    match a with
    | ⟨0, _⟩ => show win1_3.index t (0 : Fin 2) * 1 + 1 * 0 = 0; omega
    | ⟨1, _⟩ => show win1_3.index t (1 : Fin 2) * 512 + 1 * h.val = h.val; omega
  have h4 : ∀ (h : Fin 512) (j : Fin 256), iblk1 V c 4 t (ix2 h j) = V c main_v29 (ix2 h j) := fun h j => by
    show V c main_v29 (((cfg1.win 4).blk t).view.emb (ix2 h j)) = _
    refine congrArg _ (funext fun a => Fin.ext ?_)
    match a with
    | ⟨0, _⟩ => show win1_4.index t (0 : Fin 2) * 512 + 1 * h.val = h.val; omega
    | ⟨1, _⟩ => show win1_4.index t (1 : Fin 2) * 256 + 1 * j.val = j.val; omega
  have h5 : ∀ h : Fin 256, iblk1 V c 5 t (ix2 0 h) = V c main_v31 (ix2 0 h) := fun h => by
    show V c main_v31 (((cfg1.win 5).blk t).view.emb (ix2 0 h)) = _
    refine congrArg _ (funext fun a => Fin.ext ?_)
    match a with
    | ⟨0, _⟩ => show win1_5.index t (0 : Fin 2) * 1 + 1 * 0 = 0; omega
    | ⟨1, _⟩ => show win1_5.index t (1 : Fin 2) * 256 + 1 * h.val = h.val; omega
  funext j
  obtain ⟨p, q, rfl⟩ : ∃ (p : Fin 2000) (q : Fin 256), j = ix2 p q := ⟨j 0, j 1, eq_ix2 j⟩
  have hemb : ((cfg1.win 6).blk t).view.emb (ix2 p q) = ix2 (row1 t p) q := by
    refine funext fun a => Fin.ext ?_
    match a with
    | ⟨0, _⟩ => show win1_6.index t (0 : Fin 2) * 2000 + 1 * p.val = t.val * 2000 + p.val; omega
    | ⟨1, _⟩ => show win1_6.index t (1 : Fin 2) * 256 + 1 * q.val = q.val; omega
  show k1_pay1 (F := Ideal) (iblk1 V c 0 t) (iblk1 V c 1 t) (iblk1 V c 2 t) (iblk1 V c 3 t) (iblk1 V c 4 t) (iblk1 V c 5 t) (ix2 p q)
      = updated V c (((cfg1.win 6).blk t).view.emb (ix2 p q))
  rw [hemb]
  exact update_block t (iblk1 V c 0 t) (iblk1 V c 1 t) (iblk1 V c 2 t) (iblk1 V c 3 t) (iblk1 V c 4 t) (iblk1 V c 5 t)
    (V c main_arg0) (V c main_v27) (V c main_v28) (V c main_v30) (V c main_v29) (V c main_v31) h0 h1 h2 h3 h4 h5 p q

/-- An index of the output array is in point `t`'s block iff each coordinate is in the block's range on its axis. -/
theorem mem_blk1 (t : Fin cfg1.N) (i : S10000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v32).slice (win1_6.rect t)).set ↔ _
  rw [View.set_slice_whole, Rect.mem_set_unit]
  exact Iff.rfl

/-- Every entry of the output array lies in the block of the point its row falls in. -/
theorem cover1 (i : S10000x256.Idx) :
    ∃ t : Fin cfg1.N, (cfg1.win 6).flush t = true ∧ i ∈ ((cfg1.win 6).blk t).view.set := by
  have hi0 : (i 0).val < 10000 := (i 0).isLt
  have hi1 : (i 1).val < 256 := (i 1).isLt
  have ht : (i 0).val / 2000 < cfg1.N := by show (i 0).val / 2000 < 5; omega
  obtain ⟨-, -, -, -, -, -, -, -, -, -, -, -, o0, o1⟩ := idx_facts1 ⟨(i 0).val / 2000, ht⟩
  have o0' : win1_6.index ⟨(i 0).val / 2000, ht⟩ (0 : Fin 2) = (i 0).val / 2000 := o0
  refine ⟨⟨(i 0).val / 2000, ht⟩, flush1_6 _, ?_⟩
  rw [mem_blk1]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    omega
  | ⟨1, _⟩ =>
    show win1_6.index ⟨(i 0).val / 2000, ht⟩ (1 : Fin 2) * 256 ≤ (i 1).val ∧ (i 1).val < win1_6.index ⟨(i 0).val / 2000, ht⟩ (1 : Fin 2) * 256 + 256
    omega

/-- THE RESULT ARRAY after the region: `updated` of the arrays the region found. -/
theorem final1 (c : Dev nD) : (dat1 V c).arrAt 6 cfg1.N = updated V c :=
  (dat1 V c).arrAt_eq_of_cover 6 (updated V c) (fun t _ => flushed1 V c t) cover1

end Cert.KernelIdeal.Regions

end
-- ==== Proof.Layer.lean ====
/-
  The whole layer as ONE function of the eleven argument arrays.

  Edge `e` has a target node and a source node, read off the two rows of the edge-index array, a negative index
  wrapped by the node count. Its message is the first perceptron on the target's features, the source's features and
  the edge's features side by side. The messages are summed into their target nodes (the scatter-add, from zero, at
  the raw target indices), and each node's new features are its old ones plus the second perceptron on the old
  features beside the summed messages. The gather and the scatter-add are kept as the operations the programs print:
  both programs apply the same ones to the same arrays, so nothing about them is opened.
-/
import proofs.«141763_j43782896615992_1_alg».proof.Proof.Gen.KernelIdeal
import proofs.«141763_j43782896615992_1_alg».proof.Proof.Spec

noncomputable section

namespace Cert.KernelIdeal.Layer

open Idealize.ShloMosaic Idealize.ShloMosaic.ValueIdx Cert.KernelIdeal Cert.Spec
open Cert.KernelIdeal.Facts₀ Cert.KernelIdeal.Facts

/-- Row 0 of the edge-index array: each edge's target node. -/
def targets (ei : IVec S2x320000 32) : IVec S320000 32 :=
  shapeCast S320000 (extractStridedSlice S1x320000 ![0, 0] ei slices_S2x320000_S1x320000_0_0) shapeCasts_S1x320000_S320000

/-- Row 1 of the edge-index array: each edge's source node. -/
def sources (ei : IVec S2x320000 32) : IVec S320000 32 :=
  shapeCast S320000 (extractStridedSlice S1x320000 ![1, 0] ei slices_S2x320000_S1x320000_1_0) shapeCasts_S1x320000_S320000

/-- Node indices as a column, a negative one wrapped by the node count `10000`. -/
def wrapped (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

/-- The rows of the node features the index column picks. -/
def rowsAt (nf : S10000x256.Idx → EReal) (idx : IVec S320000x1 32) : S320000x256.Idx → EReal :=
  Host.gather gather_S10000x256_S320000x1_S320000x256_1_0_n_n_0_1_1256 nf idx

/-- Every edge's message. -/
def edgeMessages (nf : S10000x256.Idx → EReal) (ei : IVec S2x320000 32) (ef : S320000x16.Idx → EReal)
    (w1 : S528x512.Idx → EReal) (b1 : S512.Idx → EReal) (w2 : S512x256.Idx → EReal) (b2 : S256.Idx → EReal) :
    S320000x256.Idx → EReal :=
  mlp3Rows (show 528 = 256 + 256 + 16 from rfl) zero (rowsAt nf (wrapped (targets ei))) (rowsAt nf (wrapped (sources ei))) ef
    w1 (fun h => b1 (ix1 h)) w2 (fun j => b2 (ix1 j))

/-- The messages summed into their target nodes, from zero. -/
def aggregate (ei : IVec S2x320000 32) (msgs : S320000x256.Idx → EReal) : S10000x256.Idx → EReal :=
  Host.scatterAdd (F := Ideal) (φ := .f32) scatter_S10000x256_S320000x1_S320000x256_1_0_0_1
    (broadcastInDim S10000x256 ![] bcast_S_S10000x256 (constant (F := Ideal) S_ .f32 0x00000000#32))
    (broadcastInDim S320000x1 ![0] bcast_S320000_S320000x1_0 (targets ei)) msgs

/-- The layer: each node's features plus the update perceptron on them beside the node's summed messages. -/
def layer (nf : S10000x256.Idx → EReal) (ei : IVec S2x320000 32) (ef : S320000x16.Idx → EReal)
    (mW1 : S528x512.Idx → EReal) (mb1 : S512.Idx → EReal) (mW2 : S512x256.Idx → EReal) (mb2 : S256.Idx → EReal)
    (uW1 : S512x512.Idx → EReal) (ub1 : S512.Idx → EReal) (uW2 : S512x256.Idx → EReal) (ub2 : S256.Idx → EReal) :
    S10000x256.Idx → EReal :=
  residual2Rows (show 512 = 256 + 256 from rfl) zero nf (aggregate ei (edgeMessages nf ei ef mW1 mb1 mW2 mb2))
    uW1 (fun h => ub1 (ix1 h)) uW2 (fun j => ub2 (ix1 j))

end Cert.KernelIdeal.Layer

end
-- ==== Proof.KernelValue.lean ====
/-
  The idealized kernel program's result as the layer function of its arguments.

  The program is two stretches of array operations and two regions. Read from the end: the result array is the update
  region's output, which is `Regions.updated` of the arrays that region finds; those are the node features, the
  summed messages (the scatter-add of the message region's output at the raw target indices) and the update weights,
  the biases reshaped to one row; the message region's output is `Regions.messages` of the arrays IT finds, the
  gathered feature rows, the edge features and the message weights. A change of float format is the identity on
  extended reals, so the weights and features the regions find are the arguments themselves.
-/
import proofs.«141763_j43782896615992_1_alg».proof.Proof.Gen.KernelIdeal.Frame
import proofs.«141763_j43782896615992_1_alg».proof.Proof.Regions
import proofs.«141763_j43782896615992_1_alg».proof.Proof.Layer
import proofs.«141763_j43782896615992_1_alg».proof.Proof.KernelRun
import Idealize.ShloMosaic.Lib.StableHlo.Run

set_option maxRecDepth 16384

noncomputable section

namespace Cert.KernelIdeal.WholeValue

open Idealize.ShloMosaic Idealize.ShloMosaic.TcCoe Idealize.ShloMosaic.ValueIdx Idealize.SL.Sem Idealize.ShloMosaic.StableHlo
open Cert.KernelIdeal Cert.KernelIdeal.Gen Cert.KernelIdeal.Regions Cert.KernelIdeal.Layer Cert.Spec

variable (m : (ℓ : Loc nD τ sig) → Buf (Elt Ideal) ℓ) (ρ : Dev nD → PrngReg)

/-- A vector reshaped to one row reads, at `(0, k)`, as its entry `k`. -/
theorem row_of_vector {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 0 k) = v (ix1 k) :=
  shapeCast_apply v h (ix2 0 k) (ix1 k) (by
    rw [Shape.rowMajor_val_one, Shape.rowMajor_val_two]
    show k.val = 0 * n + k.val
    omega)

/-! ## What the message region finds (after the first stretch) -/

theorem found_targets (c : Dev nD) :
    V1 m ρ c main_v12 = rowsAt (m ((c : Thread nD τ).loc main_arg0)) (wrapped (targets (m ((c : Thread nD τ).loc main_arg1)))) := by
  show StableHlo.after hostOps0 (W0 m ρ c) (Proc.devRef .tc main_v12) = _
  after_results_simp
  rfl

theorem found_sources (c : Dev nD) :
    V1 m ρ c main_v19 = rowsAt (m ((c : Thread nD τ).loc main_arg0)) (wrapped (sources (m ((c : Thread nD τ).loc main_arg1)))) := by
  show StableHlo.after hostOps0 (W0 m ρ c) (Proc.devRef .tc main_v19) = _
  after_results_simp
  rfl

theorem found_edges (c : Dev nD) : V1 m ρ c main_v5 = (m ((c : Thread nD τ).loc main_arg2)) := by
  show StableHlo.after hostOps0 (W0 m ρ c) (Proc.devRef .tc main_v5) = _
  after_results_simp
  rfl

theorem found_mW1 (c : Dev nD) : V1 m ρ c main_v20 = (m ((c : Thread nD τ).loc main_arg3)) := by
  show StableHlo.after hostOps0 (W0 m ρ c) (Proc.devRef .tc main_v20) = _
  after_results_simp
  rfl

theorem found_mW2 (c : Dev nD) : V1 m ρ c main_v21 = (m ((c : Thread nD τ).loc main_arg5)) := by
  show StableHlo.after hostOps0 (W0 m ρ c) (Proc.devRef .tc main_v21) = _
  after_results_simp
  rfl

theorem found_mb1 (c : Dev nD) : V1 m ρ c main_v22 = shapeCast S1x512 (m ((c : Thread nD τ).loc main_arg4)) shapeCasts_S512_S1x512 := by
  show StableHlo.after hostOps0 (W0 m ρ c) (Proc.devRef .tc main_v22) = _
  after_results_simp
  rfl

theorem found_mb2 (c : Dev nD) : V1 m ρ c main_v23 = shapeCast S1x256 (m ((c : Thread nD τ).loc main_arg6)) shapeCasts_S256_S1x256 := by
  show StableHlo.after hostOps0 (W0 m ρ c) (Proc.devRef .tc main_v23) = _
  after_results_simp
  rfl

/-- The message region's output is every edge's message. -/
theorem messages_eq (c : Dev nD) :
    messages (V1 m ρ) c = edgeMessages (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  unfold messages edgeMessages
  rw [found_targets, found_sources, found_edges, found_mW1, found_mW2, found_mb1, found_mb2]
  congr 1
  · funext h; exact row_of_vector _ _ h
  · funext j; exact row_of_vector _ _ j

/-! ## What the update region finds (after the message region and the second stretch) -/

theorem kept_targets (c : Dev nD) : W2 m ρ c (Proc.devRef .tc main_v1) = targets (m ((c : Thread nD τ).loc main_arg1)) := by
  rw [W2_of_ne m ρ c main_v1 (by decide)]
  show StableHlo.after hostOps0 (W0 m ρ c) (Proc.devRef .tc main_v1) = _
  after_results_simp
  rfl

theorem found_nodes (c : Dev nD) : V3 m ρ c main_arg0 = (m ((c : Thread nD τ).loc main_arg0)) :=
  ((W4_arr m ρ c 0).trans (((dat1 (V3 m ρ) c).arrAt_in 0 rfl _).trans (A_eq1 (V3 m ρ) c 0))).symm.trans (W4_main_arg0 m ρ c)

theorem found_aggregate (c : Dev nD) :
    V3 m ρ c main_v27 = aggregate (m ((c : Thread nD τ).loc main_arg1)) (messages (V1 m ρ) c) := by
  show StableHlo.after hostOps1 (W2 m ρ c) (Proc.devRef .tc main_v27) = _
  after_results_simp
  rw [kept_targets, show W2 m ρ c (Proc.devRef .tc main_v24) = messages (V1 m ρ) c from
    (W2_arr m ρ c 7).trans (final0 (V1 m ρ) c)]
  rfl

theorem kept_uW1 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp

theorem kept_ub1 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results_simp

theorem kept_uW2 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results_simp

theorem kept_ub2 (c : Dev nD) : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  after_results_simp

theorem found_uW1 (c : Dev nD) : V3 m ρ c main_v28 = (m ((c : Thread nD τ).loc main_arg7)) := by
  show StableHlo.after hostOps1 (W2 m ρ c) (Proc.devRef .tc main_v28) = _
  after_results_simp
  rw [kept_uW1]
  rfl

theorem found_uW2 (c : Dev nD) : V3 m ρ c main_v29 = (m ((c : Thread nD τ).loc main_arg9)) := by
  show StableHlo.after hostOps1 (W2 m ρ c) (Proc.devRef .tc main_v29) = _
  after_results_simp
  rw [kept_uW2]
  rfl

theorem found_ub1 (c : Dev nD) : V3 m ρ c main_v30 = shapeCast S1x512 (m ((c : Thread nD τ).loc main_arg8)) shapeCasts_S512_S1x512 := by
  show StableHlo.after hostOps1 (W2 m ρ c) (Proc.devRef .tc main_v30) = _
  after_results_simp
  rw [kept_ub1]
  rfl

theorem found_ub2 (c : Dev nD) : V3 m ρ c main_v31 = shapeCast S1x256 (m ((c : Thread nD τ).loc main_arg10)) shapeCasts_S256_S1x256 := by
  show StableHlo.after hostOps1 (W2 m ρ c) (Proc.devRef .tc main_v31) = _
  after_results_simp
  rw [kept_ub2]
  rfl

/-- The update region's output is the layer. -/
theorem updated_eq (c : Dev nD) :
    updated (V3 m ρ) c = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold updated layer
  rw [found_nodes, found_aggregate, found_uW1, found_uW2, found_ub1, found_ub2, messages_eq]
  congr 1
  · funext h; exact row_of_vector _ _ h
  · funext j; exact row_of_vector _ _ j

/-- The result array at the end of the run is the layer of the launch arguments. -/
theorem result_eq (c : Dev nD) :
    W4 m ρ c (Proc.devRef .tc main_v32) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 6).trans ((final1 (V3 m ρ) c).trans (updated_eq m ρ c))

/-! ## The run, read -/

/-- Every weakly fair execution of the idealized kernel program ends with the result array at the layer of the
    launch arguments, and the arguments unchanged. -/
theorem run : θ_run defs (onTc (τ := τ) (main (F := Ideal))) ⟨m, fun _ => 0, ρ⟩ fun r => ∀ c : Dev nD,
      r.2.mem ((c.tc : Thread nD τ).loc main_v32) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (result_eq m ρ c), (h c).2⟩) (Cert.KernelIdeal.RunValue.run_main m ρ)

end Cert.KernelIdeal.WholeValue

end
-- ==== Proof.RefValue.lean ====
/-
  The reference program's result as the same layer function.

  The reference computes the layer with whole-array operations: it gathers the target and source rows, joins them
  with the edge features, applies the message perceptron as two matrix products with biases and a rectifier, sums the
  messages into their targets, joins the node features with the sums, applies the update perceptron and adds the
  node features. At an entry `(r, q)` each product is a sum over its contracted index, each bias its entry `q`
  (or `h`), the joined array's row `r` the pieces' rows side by side: entry by entry this is `Spec.denseRow` on the
  joined row, so each perceptron stage is `Spec.mlp3Rows` / `Spec.residual2Rows` of its inputs, and the gathers, the
  index arithmetic and the scatter-add are, term for term, the ones the layer function is written with.
-/
import proofs.«141763_j43782896615992_1_alg».proof.Proof.Gen.ReferenceIdeal.Read
import proofs.«141763_j43782896615992_1_alg».proof.Proof.Layer

noncomputable section

open scoped BigOperators

namespace Cert.ReferenceIdeal.RefValue

open Idealize.ShloMosaic Idealize.ShloMosaic.ValueIdx Cert.ReferenceIdeal Cert.ReferenceIdeal.Gen Cert.ReferenceIdeal.Read
open Cert.Spec Cert.KernelIdeal.Layer

variable (x0 : (⟨S10000x256, .f32⟩ : BufTy).Contents (Elt Ideal)) (x1 : (⟨S2x320000, .i32⟩ : BufTy).Contents (Elt Ideal)) (x2 : (⟨S320000x16, .f32⟩ : BufTy).Contents (Elt Ideal)) (x3 : (⟨S528x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S512x512, .f32⟩ : BufTy).Contents (Elt Ideal)) (x8 : (⟨S512, .f32⟩ : BufTy).Contents (Elt Ideal)) (x9 : (⟨S512x256, .f32⟩ : BufTy).Contents (Elt Ideal)) (x10 : (⟨S256, .f32⟩ : BufTy).Contents (Elt Ideal))

/-! ## The index arithmetic, the gathers and the index maps of the generated stage lemmas -/

theorem ref_rows_t : val_main_v10 (F := Ideal) x0 x1 = rowsAt x0 (wrapped (targets x1)) := rfl
theorem ref_rows_s : val_main_v17 (F := Ideal) x0 x1 = rowsAt x0 (wrapped (sources x1)) := rfl

theorem l24 (e : Fin 320000) (q : Fin 256) (h : Fin 512) : lidx_main_v24 (ix2 e q) h = ix2 e h := funext fun a => Fin.ext (by match a with | ⟨0, _⟩ => rfl | ⟨1, _⟩ => rfl)
theorem r24 (e : Fin 320000) (q : Fin 256) (h : Fin 512) : ridx_main_v24 (ix2 e q) h = ix2 h q := funext fun a => Fin.ext (by match a with | ⟨0, _⟩ => rfl | ⟨1, _⟩ => rfl)
theorem l19 (e : Fin 320000) (h : Fin 512) (k : Fin 528) : lidx_main_v19 (ix2 e h) k = ix2 e k := funext fun a => Fin.ext (by match a with | ⟨0, _⟩ => rfl | ⟨1, _⟩ => rfl)
theorem r19 (e : Fin 320000) (h : Fin 512) (k : Fin 528) : ridx_main_v19 (ix2 e h) k = ix2 k h := funext fun a => Fin.ext (by match a with | ⟨0, _⟩ => rfl | ⟨1, _⟩ => rfl)
theorem b21 (e : Fin 320000) (h : Fin 512) : idx_main_v20 (idx_main_v21 (ix2 e h)) = ix1 h := funext fun a => Fin.ext (by match a with | ⟨0, _⟩ => rfl)
theorem b26 (e : Fin 320000) (q : Fin 256) : idx_main_v25 (idx_main_v26 (ix2 e q)) = ix1 q := funext fun a => Fin.ext (by match a with | ⟨0, _⟩ => rfl)
theorem l37 (n : Fin 10000) (q : Fin 256) (h : Fin 512) : lidx_main_v37 (ix2 n q) h = ix2 n h := funext fun a => Fin.ext (by match a with | ⟨0, _⟩ => rfl | ⟨1, _⟩ => rfl)
theorem r37 (n : Fin 10000) (q : Fin 256) (h : Fin 512) : ridx_main_v37 (ix2 n q) h = ix2 h q := funext fun a => Fin.ext (by match a with | ⟨0, _⟩ => rfl | ⟨1, _⟩ => rfl)
theorem l32 (n : Fin 10000) (h : Fin 512) (k : Fin 512) : lidx_main_v32 (ix2 n h) k = ix2 n k := funext fun a => Fin.ext (by match a with | ⟨0, _⟩ => rfl | ⟨1, _⟩ => rfl)
theorem r32 (n : Fin 10000) (h : Fin 512) (k : Fin 512) : ridx_main_v32 (ix2 n h) k = ix2 k h := funext fun a => Fin.ext (by match a with | ⟨0, _⟩ => rfl | ⟨1, _⟩ => rfl)
theorem b34 (n : Fin 10000) (h : Fin 512) : idx_main_v33 (idx_main_v34 (ix2 n h)) = ix1 h := funext fun a => Fin.ext (by match a with | ⟨0, _⟩ => rfl)
theorem b39 (n : Fin 10000) (q : Fin 256) : idx_main_v38 (idx_main_v39 (ix2 n q)) = ix1 q := funext fun a => Fin.ext (by match a with | ⟨0, _⟩ => rfl)

/-! ## The message perceptron -/

/-- The reference's message array is every edge's message. -/
theorem ref_messages : val_main_v27 (F := Ideal) x0 x1 x2 x3 x4 x5 x6 = edgeMessages x0 x1 x2 x3 x4 x5 x6 := by
  funext i
  obtain ⟨e, q, rfl⟩ : ∃ (e : Fin 320000) (q : Fin 256), i = ix2 e q := ⟨i 0, i 1, eq_ix2 i⟩
  unfold edgeMessages
  rw [mlp3Rows_apply]
  unfold denseRow
  rw [val_main_v27_apply, val_main_v24_apply, val_main_v26_apply, val_main_v25_apply, b26]
  simp only [Ideal.addf_def]
  refine congrArg (· + x6 (ix1 q)) (Finset.sum_congr rfl fun h _ => ?_)
  rw [l24, r24, val_main_v23_apply, val_main_v22_apply, val_main_v19_apply, val_main_v21_apply, val_main_v20_apply, b21,
    val_main_call0_v0_apply, val_main_call0_cst_apply]
  simp only [Ideal.addf_def, Ideal.maximumf_def, Ideal.ofBits_def]
  refine congrArg (fun s => max (s + x4 (ix1 h)) zero * x5 (ix2 h q)) (Finset.sum_congr rfl fun k _ => ?_)
  rw [l19, r19]
  unfold val_main_v18
  rw [concat_cols3 (show 528 = 256 + 256 + 16 from rfl), ref_rows_t, ref_rows_s]

/-- The reference's summed messages. -/
theorem ref_aggregate : val_main_v30 (F := Ideal) x0 x1 x2 x3 x4 x5 x6 = aggregate x1 (edgeMessages x0 x1 x2 x3 x4 x5 x6) := by
  unfold val_main_v30
  rw [ref_messages]
  rfl

/-! ## The update perceptron -/

/-- The reference's result is the layer of its arguments. -/
theorem ref_layer : val_main_v41 (F := Ideal) x0 x1 x2 x3 x4 x5 x6 x7 x8 x9 x10 = layer x0 x1 x2 x3 x4 x5 x6 x7 x8 x9 x10 := by
  funext i
  obtain ⟨n, q, rfl⟩ : ∃ (n : Fin 10000) (q : Fin 256), i = ix2 n q := ⟨i 0, i 1, eq_ix2 i⟩
  unfold layer
  rw [residual2Rows_apply]
  unfold denseRow
  rw [val_main_v41_apply, val_main_v40_apply, val_main_v37_apply, val_main_v39_apply, val_main_v38_apply, b39]
  simp only [Ideal.addf_def]
  refine congrArg (fun s => x0 (ix2 n q) + (s + x10 (ix1 q))) (Finset.sum_congr rfl fun h _ => ?_)
  rw [l37, r37, val_main_v36_apply, val_main_v35_apply, val_main_v32_apply, val_main_v34_apply, val_main_v33_apply, b34,
    val_main_call1_v0_apply, val_main_call1_cst_apply]
  simp only [Ideal.addf_def, Ideal.maximumf_def, Ideal.ofBits_def]
  refine congrArg (fun s => max (s + x8 (ix1 h)) zero * x9 (ix2 h q)) (Finset.sum_congr rfl fun k _ => ?_)
  rw [l32, r32]
  unfold val_main_v31
  rw [concat_cols2 (show 512 = 256 + 256 from rfl), ref_aggregate]

end Cert.ReferenceIdeal.RefValue

end
-- ==== Proof.lean ====
/-
  One message-passing layer of a graph network, as a kernel program and as a reference, computes the same array.

  For every edge the two programs take the features of its target and source nodes and the edge's own features, side by
  side, through a two-layer perceptron with a rectifier; they sum each node's incoming messages; and they add to each
  node's features a second perceptron of the features beside the summed messages. The kernel program does the two
  perceptrons in blocks of rows (4000 edges, then 2000 nodes, at a time) with its matrix products accumulated from
  zero and its operands passed through a narrower float format; the reference does them on whole arrays. On extended
  reals a change of format is the identity and a product accumulated from zero is the plain sum, and a perceptron
  works row by row, so every block is the matching rows of one whole-array function (`Spec.mlp3Rows`,
  `Spec.residual2Rows`) and both programs end at `Layer.layer` of the arguments. Nothing in this needs a law that
  fails at infinities: the precondition is never opened.

  Modules: `Spec` (the row functions and joined rows), `KernelPay` (each body at an entry), `Regions` (each region's
  output array), `KernelRun` (the run with the result named), `Layer` (the whole function), `KernelValue` and
  `RefValue` (each program's result as that function).
-/
import proofs.«141763_j43782896615992_1_alg».proof.Defs
import proofs.«141763_j43782896615992_1_alg».proof.Proof.Gen.Kernel
import proofs.«141763_j43782896615992_1_alg».proof.Proof.Gen.Kernel.Skeleton
import proofs.«141763_j43782896615992_1_alg».proof.Proof.Gen.Kernel.Launch
import proofs.«141763_j43782896615992_1_alg».proof.Proof.Gen.Kernel.Points
import proofs.«141763_j43782896615992_1_alg».proof.Proof.Gen.Kernel.Frame
import proofs.«141763_j43782896615992_1_alg».proof.Proof.Gen.KernelIdeal
import proofs.«141763_j43782896615992_1_alg».proof.Proof.Gen.KernelIdeal.Skeleton
import proofs.«141763_j43782896615992_1_alg».proof.Proof.Gen.KernelIdeal.Launch
import proofs.«141763_j43782896615992_1_alg».proof.Proof.Gen.KernelIdeal.Points
import proofs.«141763_j43782896615992_1_alg».proof.Proof.Gen.KernelIdeal.Frame
import proofs.«141763_j43782896615992_1_alg».proof.Proof.Gen.ReferenceIdeal
import proofs.«141763_j43782896615992_1_alg».proof.Proof.Gen.Pre_finite_inputs
import proofs.«141763_j43782896615992_1_alg».proof.Proof.Gen.ReferenceIdeal.Run
import proofs.«141763_j43782896615992_1_alg».proof.Proof.Gen.ReferenceIdeal.Read
import proofs.«141763_j43782896615992_1_alg».proof.Proof.KernelValue
import proofs.«141763_j43782896615992_1_alg».proof.Proof.RefValue
import Idealize.ShloMosaic.Adequacy
import Idealize.ShloMosaic.Init

noncomputable section

namespace Cert.Proof

open Idealize.ShloMosaic Idealize.ShloMosaic.TcCoe Idealize.SL.Sem

/-- Both programs run, the kernel's from `m` and the reference's from a memory agreeing with it on the arguments, and
    both end with the result array at the layer function of `m`'s argument arrays. -/
theorem algebraic : Cert.algebraic_KernelIdeal_ReferenceIdeal := by
  intro m ρ m' ρ' _ hagree
  refine ⟨fun c => Cert.KernelIdeal.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [e0, e1, e2, e3, e4, e5, e6, e7, e8, e9, e10]
  exact (Cert.ReferenceIdeal.Read.val_main_v41_eq _ _ _ _ _ _ _ _ _ _ _).trans
    (Cert.ReferenceIdeal.RefValue.ref_layer _ _ _ _ _ _ _ _ _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
